-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1x4096x1 : Shape := ⟨4, ![4096, 1, 4096, 1]⟩
abbrev S8x1x16 : Shape := ⟨3, ![8, 1, 16]⟩
abbrev S16x8x1 : Shape := ⟨3, ![16, 8, 1]⟩
abbrev S_ : Shape := ⟨0, ![]⟩

class Facts : Prop where
  bcast_S_S4096x1x4096x1 : S_.BroadcastsInDim S4096x1x4096x1 (![] : Fin 0 → Fin S4096x1x4096x1.rank)
  reducesTo_S4096x1x4096x1_S_d0_1_2_3 : S4096x1x4096x1.ReducesTo [0, 1, 2, 3] S_
  h_S_ : 0 < S_.numel
  bcast_S_S8x1x16 : S_.BroadcastsInDim S8x1x16 (![] : Fin 0 → Fin S8x1x16.rank)
  reducesTo_S8x1x16_S_d0_1_2 : S8x1x16.ReducesTo [0, 1, 2] S_
  bcast_S_S16x8x1 : S_.BroadcastsInDim S16x8x1 (![] : Fin 0 → Fin S16x8x1.rank)
  reducesTo_S16x8x1_S_d0_1_2 : S16x8x1.ReducesTo [0, 1, 2] S_

variable [Facts]

def fn {F : FTy → Type} [FloatOps F] (main_arg0 : FVec F S4096x1x4096x1 .f32) (main_arg1 : FVec F S8x1x16 .f32) (main_arg2 : FVec F S16x8x1 .f32) : IVec S_ 1 :=
  let main_v0 : FVec F S4096x1x4096x1 .f32 := Host.absf main_arg0
  let main_cst : FVec F S_ .f32 := constant S_ .f32 0x7F800000#32
  let main_v1 : FVec F S4096x1x4096x1 .f32 := broadcastInDim S4096x1x4096x1 ![] bcast_S_S4096x1x4096x1 main_cst
  let main_v2 : IVec S4096x1x4096x1 1 := cmpf .olt main_v0 main_v1
  let main_c : IVec S_ 1 := constantI S_ 1 1#1
  let main_v3 : IVec S_ 1 := (fun x v => Host.reduce IntOp.andi x v reducesTo_S4096x1x4096x1_S_d0_1_2_3 h_S_) main_v2 main_c
  let main_v4 : FVec F S8x1x16 .f32 := Host.absf main_arg1
  let main_cst_0 : FVec F S_ .f32 := constant S_ .f32 0x7F800000#32
  let main_v5 : FVec F S8x1x16 .f32 := broadcastInDim S8x1x16 ![] bcast_S_S8x1x16 main_cst_0
  let main_v6 : IVec S8x1x16 1 := cmpf .olt main_v4 main_v5
  let main_c_1 : IVec S_ 1 := constantI S_ 1 1#1
  let main_v7 : IVec S_ 1 := (fun x v => Host.reduce IntOp.andi x v reducesTo_S8x1x16_S_d0_1_2 h_S_) main_v6 main_c_1
  let main_v8 : IVec S_ 1 := andi main_v3 main_v7
  let main_v9 : FVec F S16x8x1 .f32 := Host.absf main_arg2
  let main_cst_2 : FVec F S_ .f32 := constant S_ .f32 0x7F800000#32
  let main_v10 : FVec F S16x8x1 .f32 := broadcastInDim S16x8x1 ![] bcast_S_S16x8x1 main_cst_2
  let main_v11 : IVec S16x8x1 1 := cmpf .olt main_v9 main_v10
  let main_c_3 : IVec S_ 1 := constantI S_ 1 1#1
  let main_v12 : IVec S_ 1 := (fun x v => Host.reduce IntOp.andi x v reducesTo_S16x8x1_S_d0_1_2 h_S_) main_v11 main_c_3
  let main_v13 : IVec S_ 1 := andi main_v8 main_v12
  main_v13
-- ==== Kernel.lean ====
abbrev S4096x1x4096x1 : Shape := ⟨4, ![4096, 1, 4096, 1]⟩
abbrev S8x1x16 : Shape := ⟨3, ![8, 1, 16]⟩
abbrev S16x8x1 : Shape := ⟨3, ![16, 8, 1]⟩
abbrev S8x16 : Shape := ⟨2, ![8, 16]⟩
abbrev S16x8 : Shape := ⟨2, ![16, 8]⟩
abbrev S16x16 : Shape := ⟨2, ![16, 16]⟩
abbrev S1048576x16 : Shape := ⟨2, ![1048576, 16]⟩
abbrev S8192x16 : Shape := ⟨2, ![8192, 16]⟩
abbrev S4096x4096x1 : Shape := ⟨3, ![4096, 4096, 1]⟩

abbrev nBuf : Space → Nat
  | .hbm => 11
  | .vmem => 5
  | .smem => 0
  | _ => 0

abbrev bufTy : (tb : Table) → Fin (tcTables nBuf tb) → BufTy
  | .hbm, ⟨0, _⟩ => ⟨S4096x1x4096x1, .f32⟩
  | .hbm, ⟨1, _⟩ => ⟨S8x1x16, .f32⟩
  | .hbm, ⟨2, _⟩ => ⟨S16x8x1, .f32⟩
  | .hbm, ⟨3, _⟩ => ⟨S8x16, .f32⟩
  | .hbm, ⟨4, _⟩ => ⟨S16x8, .f32⟩
  | .hbm, ⟨5, _⟩ => ⟨S16x8, .f32⟩
  | .hbm, ⟨6, _⟩ => ⟨S8x16, .f32⟩
  | .hbm, ⟨7, _⟩ => ⟨S16x16, .f32⟩
  | .hbm, ⟨8, _⟩ => ⟨S1048576x16, .f32⟩
  | .hbm, ⟨9, _⟩ => ⟨S1048576x16, .f32⟩
  | .hbm, ⟨10, _⟩ => ⟨S4096x4096x1, .f32⟩
  | .local _ .vmem, ⟨0, _⟩ => ⟨S8192x16, .f32⟩
  | .local _ .vmem, ⟨1, _⟩ => ⟨S8192x16, .f32⟩
  | .local _ .vmem, ⟨2, _⟩ => ⟨S16x16, .f32⟩
  | .local _ .vmem, ⟨3, _⟩ => ⟨S8192x16, .f32⟩
  | .local _ .vmem, ⟨4, _⟩ => ⟨S8192x16, .f32⟩
  | _, _ => ⟨S4096x1x4096x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8192x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S8x1x16_S8x16 : S8x1x16.ShapeCasts S8x16
  shapeCasts_S16x8x1_S16x8 : S16x8x1.ShapeCasts S16x8
  transposes_S8x16_S16x8_1_0 : S8x16.Transposes [1, 0] S16x8
  transposes_S16x8_S8x16_1_0 : S16x8.Transposes [1, 0] S8x16
  shapeCasts_S4096x1x4096x1_S1048576x16 : S4096x1x4096x1.ShapeCasts S1048576x16
  inb_S8192x16_S8192x16_0_0 : ∀ a, (![0, 0] : Fin 2 → Nat) a + S8192x16.size a ≤ S8192x16.size a
  h_S8192x16 : 0 < S8192x16.numel
  shapeCasts_S8192x16_S8192x16 : S8192x16.ShapeCasts S8192x16
  bitsLt_bf16_f32 : FTy.bits .bf16 < FTy.bits .f32
  inb_S16x16_S16x16_0_0 : ∀ a, (![0, 0] : Fin 2 → Nat) a + S16x16.size a ≤ S16x16.size a
  h_S16x16 : 0 < S16x16.numel
  shapeCasts_S16x16_S16x16 : S16x16.ShapeCasts S16x16
  shapeCasts_S1048576x16_S4096x4096x1 : S1048576x16.ShapeCasts S4096x4096x1
  dot_S16x8_S8x16_S16x16_1_0_0_1_n_n_wf : DotDims.WF S16x8 S8x16 S16x16 [1] [0] [0] [1] [] []
  dot_S8192x16_S16x16_S8192x16_1_0_0_1_n_n_wf : DotDims.WF S8192x16 S16x16 S8192x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x16.size a ≤ S1048576x16.size a
  hwx0_0 : ∀ i : grid0.Coords, EltTy.bits .f32 = 32 ∨ (Rect.block (s := S1048576x16) S8192x16.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x16.size a ≤ S16x16.size a
  hwx0_1 : ∀ i : grid0.Coords, EltTy.bits .f32 = 32 ∨ (Rect.block (s := S16x16) S16x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8192x16.size a ≤ S1048576x16.size a
  hwx0_2 : ∀ i : grid0.Coords, EltTy.bits .f32 = 32 ∨ (Rect.block (s := S1048576x16) S8192x16.size (cc0_transform_2 i) (hinb0_2 i)).WholeWords (EltTy.packing .f32)

variable [Facts₀]

def dot_S16x8_S8x16_S16x16_1_0_0_1_n_n : DotDims S16x8 S8x16 S16x16 where
  lhsContracting := [1]
  rhsContracting := [0]
  lhsNonContracting := [0]
  rhsNonContracting := [1]
  lhsBatch := []
  rhsBatch := []
  wf := dot_S16x8_S8x16_S16x16_1_0_0_1_n_n_wf
def dot_S8192x16_S16x16_S8192x16_1_0_0_1_n_n : DotDims S8192x16 S16x16 S8192x16 where
  lhsContracting := [1]
  rhsContracting := [0]
  lhsNonContracting := [0]
  rhsNonContracting := [1]
  lhsBatch := []
  rhsBatch := []
  wf := dot_S8192x16_S16x16_S8192x16_1_0_0_1_n_n_wf

abbrev win0_0 : Pipeline.Window sig grid0 :=
  Pipeline.Window.ofSpec (Memref.whole main_v5) S8192x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S16x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S8192x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4096x1x4096x1 : Shape := ⟨4, ![4096, 1, 4096, 1]⟩
abbrev S8x1x16 : Shape := ⟨3, ![8, 1, 16]⟩
abbrev S16x8x1 : Shape := ⟨3, ![16, 8, 1]⟩
abbrev S4096x256x16 : Shape := ⟨3, ![4096, 256, 16]⟩
abbrev S8x16 : Shape := ⟨2, ![8, 16]⟩
abbrev S16x8 : Shape := ⟨2, ![16, 8]⟩
abbrev S4096x256x8 : Shape := ⟨3, ![4096, 256, 8]⟩
abbrev S4096x4096x1 : Shape := ⟨3, ![4096, 4096, 1]⟩

abbrev nBuf : Space → Nat
  | .hbm => 9
  | .vmem => 0
  | .smem => 0
  | _ => 0

abbrev bufTy : (tb : Table) → Fin (tcTables nBuf tb) → BufTy
  | .hbm, ⟨0, _⟩ => ⟨S4096x1x4096x1, .f32⟩
  | .hbm, ⟨1, _⟩ => ⟨S8x1x16, .f32⟩
  | .hbm, ⟨2, _⟩ => ⟨S16x8x1, .f32⟩
  | .hbm, ⟨3, _⟩ => ⟨S4096x256x16, .f32⟩
  | .hbm, ⟨4, _⟩ => ⟨S8x16, .f32⟩
  | .hbm, ⟨5, _⟩ => ⟨S16x8, .f32⟩
  | .hbm, ⟨6, _⟩ => ⟨S4096x256x8, .f32⟩
  | .hbm, ⟨7, _⟩ => ⟨S4096x256x16, .f32⟩
  | .hbm, ⟨8, _⟩ => ⟨S4096x4096x1, .f32⟩
  | _, _ => ⟨S4096x1x4096x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]

class Facts₀ : Prop where
  shapeCasts_S4096x1x4096x1_S4096x256x16 : S4096x1x4096x1.ShapeCasts S4096x256x16
  shapeCasts_S8x1x16_S8x16 : S8x1x16.ShapeCasts S8x16
  shapeCasts_S16x8x1_S16x8 : S16x8x1.ShapeCasts S16x8
  shapeCasts_S4096x256x16_S4096x4096x1 : S4096x256x16.ShapeCasts S4096x4096x1
  dot_S4096x256x16_S8x16_S4096x256x8_2_1_01_0_n_n_wf : DotDims.WF S4096x256x16 S8x16 S4096x256x8 [2] [1] [0, 1] [0] [] []
  dot_S4096x256x8_S16x8_S4096x256x16_2_1_01_0_n_n_wf : DotDims.WF S4096x256x8 S16x8 S4096x256x16 [2] [1] [0, 1] [0] [] []

variable [Facts₀]

def dot_S4096x256x16_S8x16_S4096x256x8_2_1_01_0_n_n : DotDims S4096x256x16 S8x16 S4096x256x8 where
  lhsContracting := [2]
  rhsContracting := [1]
  lhsNonContracting := [0, 1]
  rhsNonContracting := [0]
  lhsBatch := []
  rhsBatch := []
  wf := dot_S4096x256x16_S8x16_S4096x256x8_2_1_01_0_n_n_wf
def dot_S4096x256x8_S16x8_S4096x256x16_2_1_01_0_n_n : DotDims S4096x256x8 S16x8 S4096x256x16 where
  lhsContracting := [2]
  rhsContracting := [1]
  lhsNonContracting := [0, 1]
  rhsNonContracting := [0]
  lhsBatch := []
  rhsBatch := []
  wf := dot_S4096x256x8_S16x8_S4096x256x16_2_1_01_0_n_n_wf

class Facts : Prop extends Facts₀ where

variable [Facts]
-- ==== Proof.FiniteEntries.lean ====
/-
  What the precondition says of the three argument arrays: every entry of each is a real number.

  The precondition is the conjunction, over the three arrays, of "every entry has absolute value below +∞", each an
  and-reduction over the whole array of the entrywise comparison |x| < +∞. On the extended reals |x| = max x (−x), which is
  +∞ at both infinities, so the comparison holds exactly at the real numbers.
-/
import proofs.«167808_j23278722744926_1_alg».proof.Pre_finite_inputs
import Idealize.ShloMosaic.PureOps.Ideal
import Idealize.ShloMosaic.Lib.ValueIdx
import Idealize.ShloMosaic.Lib.Affine
import Idealize.ShloMosaic.Lib.ReduceAll

noncomputable section

open Idealize.ShloMosaic

namespace Cert.FiniteEntries

open Cert.Pre_finite_inputs

instance : Subsingleton S_.Idx := ⟨fun a b => funext fun d => d.elim0⟩

/-- The word 0x7F800000 is +∞. -/
theorem inf_word : Ideal.ofBits .f32 0x7F800000#32 = (⊤ : EReal) := by
  simp [Ideal.ofBits, Ideal.ieee]

/-- An extended real whose absolute value compares below +∞ is a real number. -/
theorem real_of_abs_lt_inf (x : EReal)
    (h : Ideal.cmp .olt (max x (-x)) (Ideal.ofBits .f32 0x7F800000#32) = 1#1) : ∃ r : ℝ, x = r := by
  rw [inf_word] at h
  induction x using EReal.rec with
  | bot => simp [Ideal.cmp] at h
  | coe r => exact ⟨r, rfl⟩
  | top => simp [Ideal.cmp] at h

variable [Cert.Pre_finite_inputs.Facts]

/-- Under the precondition every entry of the three argument arrays is a real number. -/
theorem real_entries (x : FVec Ideal S4096x1x4096x1 .f32) (w1 : FVec Ideal S8x1x16 .f32) (w2 : FVec Ideal S16x8x1 .f32)
    (h : Cert.Pre_finite_inputs.fn (F := Ideal) x w1 w2 = fun _ => 1#1) :
    (∀ i, ∃ r : ℝ, x i = r) ∧ (∀ i, ∃ r : ℝ, w1 i = r) ∧ (∀ i, ∃ r : ℝ, w2 i = r) := by
  have h0 := congrFun h ValueIdx.ix0
  dsimp only [Cert.Pre_finite_inputs.fn] at h0
  obtain ⟨h01, h2⟩ := IntOp.andi_eq_one.mp h0
  obtain ⟨h0', h1⟩ := IntOp.andi_eq_one.mp h01
  refine ⟨fun i => ?_, fun i => ?_, fun i => ?_⟩
  · exact real_of_abs_lt_inf (x i) (Host.reduce_andi_all _ _ _ _ _ h0' i)
  · exact real_of_abs_lt_inf (w1 i) (Host.reduce_andi_all _ _ _ _ _ h1 i)
  · exact real_of_abs_lt_inf (w2 i) (Host.reduce_andi_all _ _ _ _ _ h2 i)

end Cert.FiniteEntries

end
-- ==== Proof.PatchSpec.lean ====
/-
  The result both programs compute, as one function of the three argument arrays, index by index.

  The signal x has 4096 rows of 4096 samples; a row is cut into 256 patches of 16 consecutive samples. A patch p
  is sampled into 8 measurements z_s = ∑_t p_t · W1[s, t] and reconstructed as y_{t'} = ∑_s z_s · W2[t', s]; the
  reconstructed patches are laid back in the patch's place. So output sample h of row b, with h = 16·(h / 16) + h % 16, is

      y[b, h] = ∑_s (∑_t x[b, 16·(h / 16) + t] · W1[s, t]) · W2[h % 16, s]          (`recon`)

  and, summing over s first (the two weight matrices multiplied into one 16 × 16 matrix beforehand),

      y[b, h] = ∑_t x[b, 16·(h / 16) + t] · (∑_s W1[s, t] · W2[h % 16, s])          (`reconFused`).
-/
import Idealize.ShloMosaic.PureOps.Ideal
import Idealize.ShloMosaic.Lib.ValueIdx

noncomputable section

open scoped BigOperators
open Idealize.ShloMosaic Idealize.ShloMosaic.ValueIdx

namespace Cert.PatchSpec

/-- The signal: 4096 rows, one channel, 4096 samples, one trailing unit axis. -/
abbrev SX : Shape := ⟨4, ![4096, 1, 4096, 1]⟩
/-- The sampling weights: 8 measurements, one channel, 16 taps. -/
abbrev SW1 : Shape := ⟨3, ![8, 1, 16]⟩
/-- The reconstruction weights: 16 outputs, 8 measurements, one tap. -/
abbrev SW2 : Shape := ⟨3, ![16, 8, 1]⟩
/-- The result: 4096 rows of 4096 samples, one trailing unit axis. -/
abbrev SY : Shape := ⟨3, ![4096, 4096, 1]⟩

/-- Sample t of the patch that holds output position i: row i₀, sample 16·(i₁ / 16) + t. -/
abbrev xAt (i : SY.Idx) (t : Fin 16) : SX.Idx :=
  ix4 (⟨(i 0).val, (i 0).isLt⟩ : Fin 4096) (0 : Fin 1)
    (⟨(i 1).val / 16 * 16 + t.val, by have h1 : (i 1).val < 4096 := (i 1).isLt; have ht := t.isLt; omega⟩ : Fin 4096) (0 : Fin 1)

/-- Sampling weight of tap t for measurement s. -/
abbrev w1At (s : Fin 8) (t : Fin 16) : SW1.Idx := ix3 s (0 : Fin 1) t

/-- Reconstruction weight of measurement s for the place i₁ % 16 inside the patch. -/
abbrev w2At (i : SY.Idx) (s : Fin 8) : SW2.Idx :=
  ix3 (⟨(i 1).val % 16, Nat.mod_lt _ (by decide)⟩ : Fin 16) s (0 : Fin 1)

/-- Sample, then reconstruct. -/
def recon (x : SX.Idx → EReal) (w1 : SW1.Idx → EReal) (w2 : SW2.Idx → EReal) : SY.Idx → EReal := fun i =>
  ∑ s : Fin 8, (∑ t : Fin 16, x (xAt i t) * w1 (w1At s t)) * w2 (w2At i s)

/-- Multiply the two weight matrices first, then apply the product to the patch. -/
def reconFused (x : SX.Idx → EReal) (w1 : SW1.Idx → EReal) (w2 : SW2.Idx → EReal) : SY.Idx → EReal := fun i =>
  ∑ t : Fin 16, x (xAt i t) * ∑ s : Fin 8, w1 (w1At s t) * w2 (w2At i s)

end Cert.PatchSpec

end
-- ==== Proof.SumSwap.lean ====
/-
  Summing a doubly indexed product in either order. For finitely many extended reals x_t, a_{s,t}, b_s that are all
  real numbers,
      ∑_t x_t · (∑_s a_{s,t} · b_s)  =  ∑_s (∑_t x_t · a_{s,t}) · b_s :
  both sides are the double sum ∑_{s,t} x_t · a_{s,t} · b_s. On the extended reals the step needs the entries to be real:
  multiplication does not distribute over a sum that meets +∞ and −∞. With real entries the whole computation takes
  place in ℝ, where it is distributivity and an exchange of the two summations.
-/
import Idealize.ShloMosaic.PureOps.Ideal
import Mathlib.Tactic.Ring

noncomputable section

open scoped BigOperators

namespace Cert.SumSwap

/-- The inclusion of ℝ in the extended reals carries finite sums to finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The two orders of summation agree when every entry is a real number. -/
theorem sum_mul_sum_swap {S T : Type*} [Fintype S] [Fintype T] (x : T → EReal) (a : S → T → EReal) (b : S → EReal)
    (hx : ∀ t, ∃ r : ℝ, x t = r) (ha : ∀ s t, ∃ r : ℝ, a s t = r) (hb : ∀ s, ∃ r : ℝ, b s = r) :
    ∑ t, x t * ∑ s, a s t * b s = ∑ s, (∑ t, x t * a s t) * b s := by
  choose x' hx using hx
  choose a' ha using ha
  choose b' hb using hb
  have hl : ∑ t, x t * ∑ s, a s t * b s = ((∑ t, x' t * ∑ s, a' s t * b' s : ℝ) : EReal) := by
    rw [coe_sum]
    refine Finset.sum_congr rfl fun t _ => ?_
    rw [EReal.coe_mul, coe_sum, hx t]
    congr 1
    refine Finset.sum_congr rfl fun s _ => ?_
    rw [EReal.coe_mul, ha s t, hb s]
  have hr : ∑ s, (∑ t, x t * a s t) * b s = ((∑ s, (∑ t, x' t * a' s t) * b' s : ℝ) : EReal) := by
    rw [coe_sum]
    refine Finset.sum_congr rfl fun s _ => ?_
    rw [EReal.coe_mul, coe_sum, hb s]
    congr 1
    refine Finset.sum_congr rfl fun t _ => ?_
    rw [EReal.coe_mul, hx t, ha s t]
  rw [hl, hr]
  congr 1
  simp only [Finset.mul_sum, Finset.sum_mul]
  rw [Finset.sum_comm]
  exact Finset.sum_congr rfl fun s _ => Finset.sum_congr rfl fun t _ => by ring

end Cert.SumSwap

end
-- ==== Proof.FusedEq.lean ====
/-
  Multiplying the two weight matrices first gives the same reconstruction, when every entry of the three arrays is a real
  number: at each output position the two expressions are the two orders of summing x_t · W1[s, t] · W2[t', s] over the
  8 measurements s and the 16 taps t.
-/
import proofs.«167808_j23278722744926_1_alg».proof.Proof.PatchSpec
import proofs.«167808_j23278722744926_1_alg».proof.Proof.SumSwap

noncomputable section

open scoped BigOperators
open Idealize.ShloMosaic

namespace Cert.PatchSpec

theorem reconFused_eq_recon (x : SX.Idx → EReal) (w1 : SW1.Idx → EReal) (w2 : SW2.Idx → EReal)
    (hx : ∀ i, ∃ r : ℝ, x i = r) (h1 : ∀ i, ∃ r : ℝ, w1 i = r) (h2 : ∀ i, ∃ r : ℝ, w2 i = r) :
    reconFused x w1 w2 = recon x w1 w2 := by
  funext i
  exact Cert.SumSwap.sum_mul_sum_swap (fun t : Fin 16 => x (xAt i t)) (fun (s : Fin 8) (t : Fin 16) => w1 (w1At s t))
    (fun s : Fin 8 => w2 (w2At i s)) (fun t => hx _) (fun s t => h1 _) (fun s => h2 _)

end Cert.PatchSpec

end
-- ==== Proof.RefIsSpec.lean ====
/-
  The reference computes `recon`. Its result is a reshape of the second product; the second product at (b, p, t') is
  ∑_s z[b, p, s] · W2[t', s]; the first product at (b, p, s) is ∑_t patches[b, p, t] · W1[s, t]; and patches, W1, W2 are
  reshapes of the three arguments. Reading the reshapes at an index is arithmetic on row-major positions: output sample h
  of row b lies in patch h / 16 at place h % 16, and tap t of that patch is sample 16·(h / 16) + t of the row.
-/
import proofs.«167808_j23278722744926_1_alg».proof.Proof.Gen.ReferenceIdeal.Read
import proofs.«167808_j23278722744926_1_alg».proof.Proof.PatchSpec

noncomputable section

open scoped BigOperators
open Idealize.ShloMosaic Idealize.ShloMosaic.ValueIdx

namespace Cert.RefIsSpec

open Cert.ReferenceIdeal Cert.ReferenceIdeal.Read Cert.PatchSpec

/-- Tap t of the patch holding output position i, through the three reshapes and the two products' operand indices. -/
theorem x_index (i : SY.Idx) (s : Fin 8) (t : Fin 16) :
    idx_main_v0 (lidx_main_v3 (lidx_main_v4 (idx_main_v5 i) s) t) = xAt i t := by
  have h0 : (i 0).val < 4096 := (i 0).isLt
  have h1 : (i 1).val < 4096 := (i 1).isLt
  have h2 : (i 2).val < 1 := (i 2).isLt
  have ht := t.isLt
  funext a; apply Fin.ext
  match a with
  | ⟨0, _⟩ =>
    show ((((((i 0).val * 4096 + (i 1).val) * 1 + (i 2).val) / 4096) * 256 + (((i 0).val * 4096 + (i 1).val) * 1 + (i 2).val) / 16 % 256) * 16 + t.val) / 4096 = (i 0).val
    omega
  | ⟨1, _⟩ => rfl
  | ⟨2, _⟩ =>
    show ((((((i 0).val * 4096 + (i 1).val) * 1 + (i 2).val) / 4096) * 256 + (((i 0).val * 4096 + (i 1).val) * 1 + (i 2).val) / 16 % 256) * 16 + t.val) / 1 % 4096 = (i 1).val / 16 * 16 + t.val
    omega
  | ⟨3, _⟩ => rfl

/-- The sampling weight the first product reads for measurement s and tap t. -/
theorem w1_index (i : SY.Idx) (s : Fin 8) (t : Fin 16) :
    idx_main_v1 (ridx_main_v3 (lidx_main_v4 (idx_main_v5 i) s) t) = w1At s t := by
  have hs := s.isLt
  have ht := t.isLt
  funext a; apply Fin.ext
  match a with
  | ⟨0, _⟩ => show (s.val * 16 + t.val) / 16 = s.val; omega
  | ⟨1, _⟩ => rfl
  | ⟨2, _⟩ => show (s.val * 16 + t.val) % 16 = t.val; omega

/-- The reconstruction weight the second product reads for the place of i inside its patch and measurement s. -/
theorem w2_index (i : SY.Idx) (s : Fin 8) :
    idx_main_v2 (ridx_main_v4 (idx_main_v5 i) s) = w2At i s := by
  have h0 : (i 0).val < 4096 := (i 0).isLt
  have h1 : (i 1).val < 4096 := (i 1).isLt
  have h2 : (i 2).val < 1 := (i 2).isLt
  have hs := s.isLt
  funext a; apply Fin.ext
  match a with
  | ⟨0, _⟩ =>
    show (((((i 0).val * 4096 + (i 1).val) * 1 + (i 2).val) % 16) * 8 + s.val) / 8 = (i 1).val % 16
    omega
  | ⟨1, _⟩ =>
    show (((((i 0).val * 4096 + (i 1).val) * 1 + (i 2).val) % 16) * 8 + s.val) / 1 % 8 = s.val
    omega
  | ⟨2, _⟩ => rfl

/-- The reference's result, as the generated stages state it, is the reconstruction of the sampled patches. -/
theorem ref_eq_recon (x0 : SX.Idx → EReal) (x1 : SW1.Idx → EReal) (x2 : SW2.Idx → EReal) :
    val_main_v5 (F := Ideal) x0 x1 x2 = recon x0 x1 x2 := by
  funext i
  rw [val_main_v5_apply, val_main_v4_apply]
  unfold recon
  refine Finset.sum_congr rfl fun s _ => ?_
  rw [val_main_v3_apply, val_main_v2_apply, w2_index]
  refine congrArg (· * x2 (w2At i s)) ?_
  refine Finset.sum_congr rfl fun t _ => ?_
  rw [val_main_v0_apply, val_main_v1_apply, x_index, w1_index]

end Cert.RefIsSpec

end
-- ==== Proof.KernelHost.lean ====
/-
  What the kernel's region finds in its two input arrays, as functions of the three arguments.

  Before the region the program reshapes the signal to 1048576 rows of 16 samples (row r holds patch r % 256 of signal
  row r / 256), and builds a 16 × 16 matrix M: the sampling weights reshaped to 8 × 16 and transposed, times the
  reconstruction weights reshaped to 16 × 8 and transposed, so M[t, t'] = ∑_s W1[s, t] · W2[t', s].
-/
import proofs.«167808_j23278722744926_1_alg».proof.Proof.Gen.KernelIdeal.Frame
import proofs.«167808_j23278722744926_1_alg».proof.Proof.PatchSpec
import Idealize.ShloMosaic.Lib.StableHlo.Run
import Idealize.ShloMosaic.Lib.Pipeline.Value
import Idealize.ShloMosaic.Lib.ValueIdx
import Idealize.ShloMosaic.Lib.ValueLayout
import Idealize.ShloMosaic.Lib.StackMember
import Idealize.ShloMosaic.PureOps.Ideal.Laws

noncomputable section

open scoped BigOperators
open Idealize.ShloMosaic Idealize.ShloMosaic.TcCoe Idealize.ShloMosaic.ValueIdx Idealize.SL.Sem

namespace Cert.KernelHost

open Cert.KernelIdeal Cert.KernelIdeal.Gen Cert.PatchSpec

/-- The host's product record is the plain 16 × 8 by 8 × 16 product. -/
theorem dotM_eq : dot_S16x8_S8x16_S16x16_1_0_0_1_n_n = DotDims.plain 16 8 16 := rfl
/-- The body's product record is the plain 8192 × 16 by 16 × 16 product. -/
theorem dotB_eq : dot_S8192x16_S16x16_S8192x16_1_0_0_1_n_n = DotDims.plain 8192 16 16 := rfl

/-- The signal as rows of 16 samples. -/
def xRows (x0 : FVec Ideal SX .f32) : FVec Ideal S1048576x16 .f32 :=
  shapeCast S1048576x16 x0 shapeCasts_S4096x1x4096x1_S1048576x16

/-- The product of the two transposed weight matrices. -/
def mMat (x1 : FVec Ideal SW1 .f32) (x2 : FVec Ideal SW2 .f32) : FVec Ideal S16x16 .f32 :=
  Host.dotGeneral (F := Ideal) (φ₁ := .f32) (φ₂ := .f32) dot_S16x8_S8x16_S16x16_1_0_0_1_n_n none
    (transpose S16x8 [1, 0] (shapeCast S8x16 x1 shapeCasts_S8x1x16_S8x16) transposes_S8x16_S16x8_1_0)
    (transpose S8x16 [1, 0] (shapeCast S16x8 x2 shapeCasts_S16x8x1_S16x8) transposes_S16x8_S8x16_1_0)

/-- Row r, sample t of the reshaped signal is sample (16·r + t) % 4096 of signal row (16·r + t) / 4096. -/
theorem xRows_apply (x0 : FVec Ideal SX .f32) (r : Fin 1048576) (t : Fin 16) :
    xRows x0 (ix2 r t) = x0 (ix4 (⟨(r.val * 16 + t.val) / 4096, by have := r.isLt; have := t.isLt; omega⟩ : Fin 4096) (0 : Fin 1)
      (⟨(r.val * 16 + t.val) % 4096, Nat.mod_lt _ (by decide)⟩ : Fin 4096) (0 : Fin 1)) := by
  unfold xRows
  refine shapeCast_apply x0 shapeCasts_S4096x1x4096x1_S1048576x16 _ _ ?_
  rewrite [Shape.rowMajor_val_four, Shape.rowMajor_val_two]
  have hr := r.isLt
  have ht := t.isLt
  show ((((r.val * 16 + t.val) / 4096) * 1 + 0) * 4096 + (r.val * 16 + t.val) % 4096) * 1 + 0 = r.val * 16 + t.val
  omega

/-- M[t, q] = ∑_s W1[s, t] · W2[q, s]. -/
theorem mMat_apply (x1 : FVec Ideal SW1 .f32) (x2 : FVec Ideal SW2 .f32) (t q : Fin 16) :
    mMat x1 x2 (ix2 t q) = ∑ s : Fin 8, x1 (ix3 s (0 : Fin 1) t) * x2 (ix3 q s (0 : Fin 1)) := by
  unfold mMat
  rw [dotM_eq, StackMember.dotGeneral_plain_apply]
  refine Finset.sum_congr rfl fun s _ => ?_
  rw [ValueIdx.transpose_ix2_apply, ValueIdx.transpose_ix2_apply]
  congr 1
  · refine shapeCast_apply x1 shapeCasts_S8x1x16_S8x16 _ _ ?_
    rewrite [Shape.rowMajor_val_three, Shape.rowMajor_val_two]
    show (s.val * 1 + 0) * 16 + t.val = s.val * 16 + t.val
    omega
  · refine shapeCast_apply x2 shapeCasts_S16x8x1_S16x8 _ _ ?_
    rewrite [Shape.rowMajor_val_three, Shape.rowMajor_val_two]
    show (q.val * 8 + s.val) * 1 + 0 = q.val * 8 + s.val
    omega

variable (m : (ℓ : Loc nD τ sig) → Buf (Elt Ideal) ℓ)

/-- The region finds the reshaped signal in its first input array. -/
theorem V_rows (c : Dev nD) :
    (V m c main_v5 : FVec Ideal S1048576x16 .f32) = xRows (m ((c : Thread nD τ).loc main_arg0)) := by
  show StableHlo.after hostOps0 (fun b => m (c, b)) (Proc.devRef .tc main_v5) = _
  after_results
  rfl

/-- The region finds the product matrix in its second input array. -/
theorem V_mat (c : Dev nD) :
    (V m c main_v4 : FVec Ideal S16x16 .f32)
      = mMat (m ((c : Thread nD τ).loc main_arg1)) (m ((c : Thread nD τ).loc main_arg2)) := by
  show StableHlo.after hostOps0 (fun b => m (c, b)) (Proc.devRef .tc main_v4) = _
  after_results
  rfl

end Cert.KernelHost

end
-- ==== Proof.LibPlainDot.lean ====
/-
  The plain product of an m × k matrix by a k × n matrix, accumulated into the zero matrix, read at one
  entry over the extended reals: the sum over the contracted coordinate of the products of the entries.
  (The same reading of the host's product is the library's; this is the matrix unit's.)
-/
import Idealize.ShloMosaic.PureOps.Ideal.Laws
import Idealize.ShloMosaic.Lib.ValueIdx
import Idealize.ShloMosaic.Lib.StackMember

noncomputable section

open scoped BigOperators
open Idealize.ShloMosaic Idealize.ShloMosaic.ValueIdx

namespace Cert.LibPlainDot

/-- Entry (a, b) of the product into a zero accumulator is ∑_c A(a, c) · B(c, b). -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant ⟨2, ![m, n]⟩ .f32 0x00000000#32) (ix2 a b)
      = ∑ c : Fin k, A (ix2 a c) * B (ix2 c b) := by
  show FloatOps.matmul (DotDims.plain m k n) prec A B (constant ⟨2, ![m, n]⟩ .f32 0x00000000#32) (ix2 a b) = _
  rw [Ideal.matmul_constant_zero_apply]
  have h := StackMember.dotGeneral_plain_apply (m := m) (n := n) prec A B a b
  rw [← h]
  show _ = FloatOps.dotGeneral (DotDims.plain m k n) prec HostSchedule.single A B (ix2 a b)
  rw [Ideal.dotGeneral_apply]

/-- Entry (a, b) of the host's plain product: the library's reading, restated beside the other. -/
theorem dotGeneral_plain_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    Host.dotGeneral (DotDims.plain m k n) prec A B (ix2 a b) = ∑ c : Fin k, A (ix2 a c) * B (ix2 c b) :=
  StackMember.dotGeneral_plain_apply prec A B a b

end Cert.LibPlainDot

end
-- ==== Proof.KernelBlocks.lean ====
/-
  The kernel's region: the output array after the run is the input rows times the 16 × 16 matrix.

  The grid has 128 points; point t reads rows 8192·t … 8192·t + 8191 of the first input (all 16 columns) and the whole
  matrix, multiplies them, and writes the product to the same rows of the output. Entry (p, q) of a block's product is
  ∑_k rows[8192·t + p, k] · M[k, q], which is entry (8192·t + p, q) of the whole product; the 128 blocks tile the output.
-/
import proofs.«167808_j23278722744926_1_alg».proof.Proof.Gen.KernelIdeal.Frame
import proofs.«167808_j23278722744926_1_alg».proof.Proof.KernelHost
import proofs.«167808_j23278722744926_1_alg».proof.Proof.LibPlainDot
import Idealize.ShloMosaic.Lib.Pipeline.Value
import Idealize.ShloMosaic.Lib.ValueIdx

set_option maxRecDepth 16384

noncomputable section

open scoped BigOperators
open Idealize.ShloMosaic Idealize.ShloMosaic.TcCoe Idealize.ShloMosaic.ValueIdx Idealize.SL.Sem
open Idealize.ShloMosaic.Pipeline (Dat Cfg Window)

namespace Cert.KernelBlocks

open Cert.KernelIdeal Cert.KernelIdeal.Gen Cert.KernelHost

/-- Rows of 16 entries times a 16 × 16 matrix. -/
def rowsTimes (X : S1048576x16.Idx → EReal) (M : S16x16.Idx → EReal) : S1048576x16.Idx → EReal := fun i =>
  ∑ k : Fin 16, X (ix2 (⟨(i 0).val, (i 0).isLt⟩ : Fin 1048576) k) * M (ix2 k (⟨(i 1).val, (i 1).isLt⟩ : Fin 16))

/-- The body's stored value at entry (p, q): the block of rows times the matrix (the narrowing of both operands is
    the identity on extended reals, the accumulator is zero). -/
theorem pay_apply (x0 : S8192x16.Idx → EReal) (x1 : S16x16.Idx → EReal) (p : Fin 8192) (q : Fin 16) :
    k0_pay1 (F := Ideal) x0 x1 (ix2 p q) = ∑ k : Fin 16, x0 (ix2 p k) * x1 (ix2 k q) := by
  unfold k0_pay1
  rw [dotB_eq, Cert.LibPlainDot.matmul_plain_zero_apply, shapeCast_self, shapeCast_self]
  rfl

theorem hz : (![0, 0] : Fin 2 → Nat) = fun _ => 0 := funext fun a => by fin_cases a <;> rfl

/-- The printed index maps over the grid: the first input's block moves with the output's along the rows, every other
    block index is zero. -/
theorem idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0 :=
  (by decide +kernel : ∀ t : Fin grid0.N, _)

/-- Every block of rows is some point's. -/
theorem idx_onto : ∀ q0 : Fin 128, ∃ t : Fin cfg0.N, win0_2.index t = ![q0.val, 0] :=
  (by decide +kernel : ∀ q0 : Fin 128, ∃ t : Fin grid0.N, win0_2.index t = ![q0.val, 0])

variable (m : (ℓ : Loc nD τ sig) → Buf (Elt Ideal) ℓ)

/-- The first input array as the region finds it: rows of 16 entries. -/
abbrev rowsArr (c : Dev nD) : FVec Ideal S1048576x16 .f32 := V m c main_v5
/-- The second input array as the region finds it: the 16 × 16 matrix. -/
abbrev matArr (c : Dev nD) : FVec Ideal S16x16 .f32 := V m c main_v4

/-- What point t writes back is block t of the whole product of the arrays the region finds. -/
theorem flushed_eq (c : Dev nD) (t : Fin cfg0.N) :
    (dats m 0 c).flushed 2 t
      = ((cfg0.win 2).blk t).view.read (Elt Ideal) (rowsTimes (V m c main_v5) (V m c main_v4)) := by
  show (cfg0.win 2).cut (grid0.coords t) ((dats m 0 c).after 2 t) = _
  rw [after0_2]
  unfold out0_2
  rw [View.canon_unit_zero hz]
  simp only [View.ld_unit_zero (S := S8192x16) hz, View.ld_unit_zero (S := S16x16) hz]
  obtain ⟨e0, e1, e2, e3, e4⟩ := idx_facts t
  funext j
  obtain ⟨p, q, rfl⟩ : ∃ (p : Fin 8192) (q : Fin 16), j = ix2 p q := ⟨j 0, j 1, eq_ix2 j⟩
  show k0_pay1 (F := Ideal) (iblk m c 0 t) (iblk m c 1 t) (ix2 p q)
    = rowsTimes (V m c main_v5) (V m c main_v4) (((cfg0.win 2).blk t).view.emb (ix2 p q))
  refine (pay_apply (iblk m c 0 t) (iblk m c 1 t) p q).trans ?_
  unfold rowsTimes
  refine Finset.sum_congr rfl fun k _ => ?_
  have h0 : ((cfg0.win 0).blk t).view.emb (ix2 p k)
      = ix2 (⟨(((cfg0.win 2).blk t).view.emb (ix2 p q) 0).val, (((cfg0.win 2).blk t).view.emb (ix2 p q) 0).isLt⟩ : Fin 1048576) k := by
    funext a; apply Fin.ext
    match a with
    | ⟨0, _⟩ => show win0_0.index t (0 : Fin 2) * 8192 + 1 * p.val = win0_2.index t (0 : Fin 2) * 8192 + 1 * p.val; omega
    | ⟨1, _⟩ => show win0_0.index t (1 : Fin 2) * 16 + 1 * k.val = k.val; omega
  have h1 : ((cfg0.win 1).blk t).view.emb (ix2 k q)
      = ix2 k (⟨(((cfg0.win 2).blk t).view.emb (ix2 p q) 1).val, (((cfg0.win 2).blk t).view.emb (ix2 p q) 1).isLt⟩ : Fin 16) := by
    funext a; apply Fin.ext
    match a with
    | ⟨0, _⟩ => show win0_1.index t (0 : Fin 2) * 16 + 1 * k.val = k.val; omega
    | ⟨1, _⟩ => show win0_1.index t (1 : Fin 2) * 16 + 1 * q.val = win0_2.index t (1 : Fin 2) * 16 + 1 * q.val; omega
  exact congrArg₂ (fun a b : EReal => a * b) (congrArg (rowsArr m c) h0) (congrArg (matArr m c) h1)

/-- An index of the output is in point t's block iff each coordinate is in the block's range on its axis. -/
theorem mem_blk (t : Fin cfg0.N) (i : S1048576x16.Idx) :
    i ∈ ((cfg0.win 2).blk t).view.set ↔ ∀ a : Fin 2, win0_2.index t a * S8192x16.size a ≤ (i a).val ∧ (i a).val < win0_2.index t a * S8192x16.size a + S8192x16.size a := by
  show i ∈ ((View.whole main_v6).slice (win0_2.rect t)).set ↔ _
  rw [View.set_slice_whole, Rect.mem_set_unit]
  exact Iff.rfl

/-- Row r of the output lies in the block of point r / 8192. -/
theorem cover (i : S1048576x16.Idx) :
    ∃ t : Fin cfg0.N, (cfg0.win 2).flush t = true ∧ i ∈ ((cfg0.win 2).blk t).view.set := by
  have hi0 : (i 0).val < 1048576 := (i 0).isLt
  have hi1 : (i 1).val < 16 := (i 1).isLt
  obtain ⟨t, ht⟩ := idx_onto ⟨(i 0).val / 8192, by omega⟩
  have q0 : win0_2.index t (0 : Fin 2) = (i 0).val / 8192 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 8192 ≤ (i 0).val ∧ (i 0).val < win0_2.index t (0 : Fin 2) * 8192 + 8192; omega
  | ⟨1, _⟩ => show win0_2.index t (1 : Fin 2) * 16 ≤ (i 1).val ∧ (i 1).val < win0_2.index t (1 : Fin 2) * 16 + 16; omega

/-- The output array after the run: the rows the region found times the matrix it found. -/
theorem final (c : Dev nD) : (dats m 0 c).arrAt 2 cfg0.N = rowsTimes (V m c main_v5) (V m c main_v4) :=
  (dats m 0 c).arrAt_eq_of_cover 2 _ (fun t _ => flushed_eq m c t) cover

end Cert.KernelBlocks

end
-- ==== Proof.KernelValue.lean ====
/-
  The kernel's result as a function of its three arguments.

  After the region the program reshapes the 1048576 × 16 product back to 4096 rows of 4096 samples. Output sample h of
  row b is entry (256·b + h / 16, h % 16) of the product, that is ∑_t rows[256·b + h / 16, t] · M[t, h % 16], and
  rows[256·b + h / 16, t] is sample 16·(h / 16) + t of signal row b: the fused reconstruction.
-/
import proofs.«167808_j23278722744926_1_alg».proof.Proof.Gen.KernelIdeal.Frame
import proofs.«167808_j23278722744926_1_alg».proof.Proof.KernelHost
import proofs.«167808_j23278722744926_1_alg».proof.Proof.KernelBlocks
import Idealize.ShloMosaic.Lib.StableHlo.Run
import Idealize.ShloMosaic.Lib.Pipeline.Value
import Idealize.ShloMosaic.Lib.ValueIdx

noncomputable section

open scoped BigOperators
open Idealize.ShloMosaic Idealize.ShloMosaic.TcCoe Idealize.ShloMosaic.ValueIdx Idealize.SL.Sem

namespace Cert.KernelValue

open Cert.KernelIdeal Cert.KernelIdeal.Gen Cert.KernelHost Cert.KernelBlocks Cert.PatchSpec

/-- The product of the reshaped signal and the weight matrix, reshaped back to the signal's layout. -/
def kernelResult (x0 : FVec Ideal SX .f32) (x1 : FVec Ideal SW1 .f32) (x2 : FVec Ideal SW2 .f32) : FVec Ideal S4096x4096x1 .f32 :=
  shapeCast S4096x4096x1 (rowsTimes (xRows x0) (mMat x1 x2)) shapeCasts_S1048576x16_S4096x4096x1

/-- Entry (256·b + h / 16, h % 16) of the product is the fused reconstruction at (b, h). -/
theorem rowsTimes_at (x0 : FVec Ideal SX .f32) (x1 : FVec Ideal SW1 .f32) (x2 : FVec Ideal SW2 .f32) (i : SY.Idx) :
    rowsTimes (xRows x0) (mMat x1 x2)
        (ix2 (⟨((i 0).val * 4096 + (i 1).val) / 16, by have h0 : (i 0).val < 4096 := (i 0).isLt; have h1 : (i 1).val < 4096 := (i 1).isLt; omega⟩ : Fin 1048576)
          (⟨(i 1).val % 16, Nat.mod_lt _ (by decide)⟩ : Fin 16))
      = reconFused x0 x1 x2 i := by
  have h0 : (i 0).val < 4096 := (i 0).isLt
  have h1 : (i 1).val < 4096 := (i 1).isLt
  unfold rowsTimes reconFused
  refine Finset.sum_congr rfl fun t _ => ?_
  have ht := t.isLt
  rw [xRows_apply, mMat_apply]
  refine congrArg₂ (· * ·) (congrArg x0 ?_) rfl
  funext a; apply Fin.ext
  match a with
  | ⟨0, _⟩ => show (((i 0).val * 4096 + (i 1).val) / 16 * 16 + t.val) / 4096 = (i 0).val; omega
  | ⟨1, _⟩ => rfl
  | ⟨2, _⟩ => show (((i 0).val * 4096 + (i 1).val) / 16 * 16 + t.val) % 4096 = (i 1).val / 16 * 16 + t.val; omega
  | ⟨3, _⟩ => rfl

/-- The kernel's result is the fused reconstruction. -/
theorem kernelResult_eq (x0 : FVec Ideal SX .f32) (x1 : FVec Ideal SW1 .f32) (x2 : FVec Ideal SW2 .f32) :
    kernelResult x0 x1 x2 = reconFused x0 x1 x2 := by
  funext i
  have h0 : (i 0).val < 4096 := (i 0).isLt
  have h1 : (i 1).val < 4096 := (i 1).isLt
  have h2 : (i 2).val < 1 := (i 2).isLt
  unfold kernelResult
  refine (shapeCast_apply _ shapeCasts_S1048576x16_S4096x4096x1 i
    (ix2 (⟨((i 0).val * 4096 + (i 1).val) / 16, by omega⟩ : Fin 1048576) (⟨(i 1).val % 16, Nat.mod_lt _ (by decide)⟩ : Fin 16)) ?_).trans
    (rowsTimes_at x0 x1 x2 i)
  rewrite [Shape.rowMajor_val_two, Shape.rowMajor_val_three]
  show ((i 0).val * 4096 + (i 1).val) / 16 * 16 + (i 1).val % 16 = ((i 0).val * 4096 + (i 1).val) * 1 + (i 2).val
  omega

variable (m : (ℓ : Loc nD τ sig) → Buf (Elt Ideal) ℓ) (ρ : Dev nD → PrngReg)

/-- The result buffer after the reshape that follows the region. -/
theorem tail_eq (c : Dev nD) :
    (Pipeline.afterTail₀ cfgs (dats m) 0 (V0 m) [hostOps1] c main_v7 : FVec Ideal S4096x4096x1 .f32)
      = kernelResult (m ((c : Thread nD τ).loc main_arg0)) (m ((c : Thread nD τ).loc main_arg1)) (m ((c : Thread nD τ).loc main_arg2)) := by
  unfold Pipeline.afterTail₀
  show StableHlo.after hostOps1 _ (Proc.devRef .tc main_v7) = _
  after_results
  have h6 : Pipeline.withArrays (cfgs 0).spec c (V0 m c) (fun w => (dats m 0 c).arrAt w (cfgs 0).N) (Proc.devRef .tc main_v6)
      = rowsTimes (xRows (m ((c : Thread nD τ).loc main_arg0))) (mMat (m ((c : Thread nD τ).loc main_arg1)) (m ((c : Thread nD τ).loc main_arg2))) :=
    ((Pipeline.withArrays_arr spec0 launch0.win.arr_inj c _ _ 2).trans (final m c)).trans
      (congrArg₂ rowsTimes (V_rows m c) (V_mat m c))
  rw [h6]
  rfl

/-- The kernel's run with its result named: every weakly fair execution terminates, the result buffer holding the reshaped
    product of the reshaped signal and the weight matrix, the three arguments unchanged. -/
theorem run : θ_run defs (onTc (τ := τ) (main (F := Ideal))) ⟨m, fun _ => 0, ρ⟩ fun r => ∀ c : Dev nD,
      r.2.mem ((c : Thread nD τ).loc main_v7)
        = kernelResult (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c =>
    ⟨((h c).2 main_v7 (Pipeline.mem_restRefs_of main_v7 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelValue

end
-- ==== Proof.lean ====
/-
  A patchwise sampling-and-reconstruction network, the kernel against its reference, over the extended reals.

  Both programs cut each of 4096 signal rows into 256 patches of 16 samples, map a patch p to 8 measurements
  z_s = ∑_t p_t · W1[s, t], and reconstruct 16 samples y_{t'} = ∑_s z_s · W2[t', s] in the patch's place. The reference does
  the two products one after the other. The kernel multiplies the two weight matrices first, M[t, t'] = ∑_s W1[s, t] · W2[t', s],
  reshapes the signal to 1048576 rows of 16 samples and computes rows · M block by block: 128 grid points of 8192 rows
  each. At the ideal instance the narrowing of the operands is the identity and the product into a zero accumulator is
  the plain sum, so output sample h of row b is

      kernel:     ∑_t x[b, 16·(h/16) + t] · (∑_s W1[s, t] · W2[h % 16, s])
      reference:  ∑_s (∑_t x[b, 16·(h/16) + t] · W1[s, t]) · W2[h % 16, s].

  These are the two orders of one double sum. They agree because the precondition makes every entry a real number
  (on the extended reals a product does not distribute over a sum that meets both infinities): the only place the
  precondition is used.

  The modules: SumSwap (the two orders of summation), FiniteEntries (the precondition gives real entries), PatchSpec
  (the result as a function of the arguments, both ways) and FusedEq (the two ways agree), RefIsSpec (the reference is
  that function), KernelHost (what the region finds in its input arrays), KernelBlocks (the region's output array is rows
  times matrix), KernelValue (the kernel's result is that function, fused). The frames are the generated ones; the kernel
  has no sanctioned rewrite, so the idealization claim is trivial.
-/
import proofs.«167808_j23278722744926_1_alg».proof.Defs
import proofs.«167808_j23278722744926_1_alg».proof.Proof.Gen.Kernel
import proofs.«167808_j23278722744926_1_alg».proof.Proof.Gen.Kernel.Skeleton
import proofs.«167808_j23278722744926_1_alg».proof.Proof.Gen.Kernel.Launch
import proofs.«167808_j23278722744926_1_alg».proof.Proof.Gen.Kernel.Points
import proofs.«167808_j23278722744926_1_alg».proof.Proof.Gen.Kernel.Frame
import proofs.«167808_j23278722744926_1_alg».proof.Proof.Gen.KernelIdeal
import proofs.«167808_j23278722744926_1_alg».proof.Proof.Gen.KernelIdeal.Skeleton
import proofs.«167808_j23278722744926_1_alg».proof.Proof.Gen.KernelIdeal.Launch
import proofs.«167808_j23278722744926_1_alg».proof.Proof.Gen.KernelIdeal.Points
import proofs.«167808_j23278722744926_1_alg».proof.Proof.Gen.KernelIdeal.Frame
import proofs.«167808_j23278722744926_1_alg».proof.Proof.Gen.ReferenceIdeal
import proofs.«167808_j23278722744926_1_alg».proof.Proof.Gen.Pre_finite_inputs
import proofs.«167808_j23278722744926_1_alg».proof.Proof.Gen.ReferenceIdeal.Run
import proofs.«167808_j23278722744926_1_alg».proof.Proof.Gen.ReferenceIdeal.Read
import proofs.«167808_j23278722744926_1_alg».proof.Proof.FiniteEntries
import proofs.«167808_j23278722744926_1_alg».proof.Proof.FusedEq
import proofs.«167808_j23278722744926_1_alg».proof.Proof.RefIsSpec
import proofs.«167808_j23278722744926_1_alg».proof.Proof.KernelValue
import Idealize.ShloMosaic.Adequacy
import Idealize.ShloMosaic.Init

noncomputable section

namespace Cert.Proof

open Idealize.ShloMosaic Idealize.ShloMosaic.TcCoe Idealize.SL.Sem

/-- The kernel as printed runs and keeps its arguments. -/
theorem frame_kernel : Cert.frame_Kernel := fun m ρ _ => Cert.Kernel.Gen.frame m ρ

/-- So does the kernel read at the ideal instance. -/
theorem frame_kernelIdeal : Cert.frame_KernelIdeal := fun m ρ _ => Cert.KernelIdeal.Gen.frame m ρ

/-- The reference runs and keeps its arguments: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation of the kernel was rewritten for the ideal reading. -/
theorem preserves : Cert.preserves_Kernel_KernelIdeal := trivial

/-- Both programs end with the reconstruction `recon` of the arguments: the reference directly, the kernel through the
    fused form and the exchange of the two summations, which the precondition's real entries allow. -/
theorem algebraic : Cert.algebraic_KernelIdeal_ReferenceIdeal := by
  intro m ρ m' ρ' hpre hagree
  refine ⟨fun c => Cert.PatchSpec.recon (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2)), ?_, ?_⟩
  · refine (θ_run Cert.KernelIdeal.defs _ _).mono (fun _ h c => ⟨(h c).1.trans ?_, (h c).2⟩) (Cert.KernelValue.run m ρ)
    obtain ⟨hx, h1, h2⟩ := Cert.FiniteEntries.real_entries _ _ _ (hpre c)
    rw [Cert.KernelValue.kernelResult_eq]
    exact Cert.PatchSpec.reconFused_eq_recon _ _ _ hx h1 h2
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v5_eq, Cert.RefIsSpec.ref_eq_recon, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
